-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S100000x32 .f32) (main_arg1 : FVec F S100000x32 .f32) (main_arg2 : IVec S2x1600000 32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x32 : Shape := ⟨2, ![100000, 32]⟩
abbrev S2x1600000 : Shape := ⟨2, ![2, 1600000]⟩
abbrev S64x64 : Shape := ⟨2, ![64, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S5000x64 : Shape := ⟨2, ![5000, 64]⟩
abbrev S1700000x64 : Shape := ⟨2, ![1700000, 64]⟩

abbrev nBuf : Space → Nat
  | .hbm => 90
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2x1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S100000x64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S_, .f32⟩
  | .hbm, ⟨28, _⟩ => ⟨S1700000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1x64, .f32⟩
  | .hbm, ⟨53, _⟩ => ⟨S100000x64, .f32⟩
  | .hbm, ⟨54, _⟩ => ⟨S1700000x1, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S100000x32_S100000x32_S100000x64_d1 : Shape.Concatenates [S100000x32, S100000x32] S100000x64 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S64x64 : Shape := ⟨2, ![64, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1x64 : Shape := ⟨2, ![1, 64]⟩
abbrev S_ : Shape := ⟨0, ![]⟩
abbrev S1700000x1 : Shape := ⟨2, ![1700000, 1]⟩
abbrev S1700000x64 : Shape := ⟨2, ![1700000, 64]⟩

abbrev nBuf : Space → Nat
  | .hbm => 140
  | .vmem => 0
  | .smem => 0
  | _ => 0

abbrev hbmTy0_0 (i : Nat) : BufTy := match i % 128 with
  | 0 => ⟨S100000x32, .f32⟩
  | 1 => ⟨S100000x32, .f32⟩
  | 2 => ⟨S2x1600000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S100000x64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000, .f32⟩
  | 23 => ⟨S_, .f32⟩
  | 24 => ⟨S1700000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S100000, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S1700000x1, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000, .f32⟩
  | 81 => ⟨S_, .f32⟩
  | 82 => ⟨S1700000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S100000, .f32⟩
  | 92 => ⟨S_, .f32⟩
  | 93 => ⟨S100000, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S1700000x1, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x64, .f32⟩
  | 125 => ⟨S1700000x64, .f32⟩
  | 126 => ⟨S_, .f32⟩
  | 127 => ⟨S100000x64, .f32⟩
  | _ => ⟨S100000x32, .f32⟩

abbrev hbmTy0_1 (i : Nat) : BufTy := match i % 128 with
  | 0 => ⟨S1700000x1, .i32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call0_cst : Ref sig .tc := ⟨.hbm, 72, rfl⟩
abbrev main_call0_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_17 : Ref sig .tc := ⟨.hbm, 104, rfl⟩
abbrev main_v74 : Ref sig .tc := ⟨.hbm, 105, rfl⟩
abbrev main_v75 : Ref sig .tc := ⟨.hbm, 106, rfl⟩
abbrev main_c_18 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_19 : Ref sig .tc := ⟨.hbm, 115, rfl⟩
abbrev main_v83 : Ref sig .tc := ⟨.hbm, 116, rfl⟩
abbrev main_v84 : Ref sig .tc := ⟨.hbm, 117, rfl⟩
abbrev main_c_20 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_21 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call1_cst : Ref sig .tc := ⟨.hbm, 130, rfl⟩
abbrev main_call1_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call2_cst : Ref sig .tc := ⟨.hbm, 137, rfl⟩
abbrev main_call2_v0 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  concatenates_S100000x32_S100000x32_S100000x64_d1 : Shape.Concatenates [S100000x32, S100000x32] S100000x64 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The function both programs compute, as one composition of named pieces.

  A graph on N = 100000 nodes is given by E = 1600000 directed edges; to these every node's self loop is added, so
  there are M = 1700000 messages, message k going from node src(k) to node dst(k). Each node's degree counts the
  messages that leave it; a message's weight is deg(src)^(-1/2) · deg(dst)^(-1/2). One round of message passing
  sends every node's 64 features along every message, scaled by the message's weight, and adds up what arrives at
  each node. The network is: the two 32-wide inputs side by side; a dense layer; a round; the positive part; a
  second dense layer; a round; the positive part; a third dense layer; the positive part.

  Everything here is generic in the number system: no property of the numbers is used, only the shape of the
  composition.
-/
import proofs.«144445_j31988916420846_1_alg».proof.Proof.Gen.ReferenceIdeal

noncomputable section

namespace Cert.Gcn

open Idealize.ShloMosaic Cert.ReferenceIdeal Cert.ReferenceIdeal.Gen

variable {F : FTy → Type} [FloatOps F]

/-- The sources of the M messages: row 0 of the edge list, then the nodes 0 … N−1 (the self loops). -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the M messages: row 1 of the edge list, then the nodes 0 … N−1. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A column of index words in which a negative word counts from the end: v + N where v < 0, else v. -/
def fromEnd (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- deg^(-1/2) per node, the degree counting one for every message that names the node as its source. -/
def invSqrtDegree (e : (⟨S2x1600000, .i32⟩ : BufTy).Contents (Elt F)) : (⟨S100000, .f32⟩ : BufTy).Contents (Elt F) :=
  Host.powf (Host.scatterAdd scatter_S100000_S1700000x1_S1700000_n_0_0_1 (broadcastInDim S100000 ![] bcast_S_S100000 (constant S_ .f32 0x00000000#32)) (fromEnd (sources e)) (broadcastInDim S1700000 ![] bcast_S_S1700000 (constant S_ .f32 0x3F800000#32))) (broadcastInDim S100000 ![] bcast_S_S100000 (constant S_ .f32 0xBF000000#32))

/-- A message's weight: deg(src)^(-1/2) · deg(dst)^(-1/2). -/
def weights (e : (⟨S2x1600000, .i32⟩ : BufTy).Contents (Elt F)) : (⟨S1700000, .f32⟩ : BufTy).Contents (Elt F) :=
  mulf (Host.gather gather_S100000_S1700000x1_S1700000_n_0_n_n_0_1_1 (invSqrtDegree e) (fromEnd (sources e))) (Host.gather gather_S100000_S1700000x1_S1700000_n_0_n_n_0_1_1 (invSqrtDegree e) (fromEnd (targets e)))

/-- One round of message passing over given sources, targets and weights: node features gathered at the sources,
    scaled by the weights, summed at the targets. -/
def roundWith (s t : (⟨S1700000, .i32⟩ : BufTy).Contents (Elt F)) (w : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 t) (mulf (broadcastInDim S1700000x64 ![0, 1] bcast_S1700000x1_S1700000x64_0_1 (broadcastInDim S1700000x1 ![0] bcast_S1700000_S1700000x1_0 w)) (Host.gather gather_S100000x64_S1700000x1_S1700000x64_1_0_n_n_0_1_164 h (fromEnd s)))

/-- One round of message passing on the graph the edge list gives. -/
def round (e : (⟨S2x1600000, .i32⟩ : BufTy).Contents (Elt F)) (h : (⟨S100000x64, .f32⟩ : BufTy).Contents (Elt F)) :
    (⟨S100000x64, .f32⟩ : BufTy).Contents (Elt F) :=
  roundWith (sources e) (targets e) (weights e) h

/-- The positive part, entry by entry. -/
def positive (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- A dense layer with its bias given as one row: x · W, plus the row repeated down the N rows. -/
def dense (x : (⟨S100000x64, .f32⟩ : BufTy).Contents (Elt F)) (W : (⟨S64x64, .f32⟩ : BufTy).Contents (Elt F))
    (b : (⟨S1x64, .f32⟩ : BufTy).Contents (Elt F)) : (⟨S100000x64, .f32⟩ : BufTy).Contents (Elt F) :=
  addf (Host.dotGeneral dot_S100000x64_S64x64_S100000x64_1_0_0_1_n_n none x W) (broadcastInDim S100000x64 ![0, 1] bcast_S1x64_S100000x64_0_1 b)

/-- A vector of 64 entries laid out as one row. -/
def asRow (b : (⟨S64, .f32⟩ : BufTy).Contents (Elt F)) : (⟨S1x64, .f32⟩ : BufTy).Contents (Elt F) :=
  broadcastInDim S1x64 ![1] bcast_S64_S1x64_1 b

/-- The two 32-wide inputs side by side. -/
def features (x feat : (⟨S100000x32, .f32⟩ : BufTy).Contents (Elt F)) : (⟨S100000x64, .f32⟩ : BufTy).Contents (Elt F) :=
  concatenate S100000x64 1 [⟨S100000x32, x⟩, ⟨S100000x32, feat⟩] concatenates_S100000x32_S100000x32_S100000x64_d1

/-- The three layers as they are grouped between the rounds: a dense layer; a positive part then a dense layer;
    a positive part, a dense layer and a positive part. -/
def first (x : (⟨S100000x64, .f32⟩ : BufTy).Contents (Elt F)) (W : (⟨S64x64, .f32⟩ : BufTy).Contents (Elt F))
    (b : (⟨S1x64, .f32⟩ : BufTy).Contents (Elt F)) : (⟨S100000x64, .f32⟩ : BufTy).Contents (Elt F) := dense x W b
def second (x : (⟨S100000x64, .f32⟩ : BufTy).Contents (Elt F)) (W : (⟨S64x64, .f32⟩ : BufTy).Contents (Elt F))
    (b : (⟨S1x64, .f32⟩ : BufTy).Contents (Elt F)) : (⟨S100000x64, .f32⟩ : BufTy).Contents (Elt F) := dense (positive x) W b
def third (x : (⟨S100000x64, .f32⟩ : BufTy).Contents (Elt F)) (W : (⟨S64x64, .f32⟩ : BufTy).Contents (Elt F))
    (b : (⟨S1x64, .f32⟩ : BufTy).Contents (Elt F)) : (⟨S100000x64, .f32⟩ : BufTy).Contents (Elt F) := positive (dense (positive x) W b)

/-- The whole network. -/
def network (x feat : (⟨S100000x32, .f32⟩ : BufTy).Contents (Elt F)) (e : (⟨S2x1600000, .i32⟩ : BufTy).Contents (Elt F))
    (W1 : (⟨S64x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F))
    (W3 : (⟨S64x64, .f32⟩ : BufTy).Contents (Elt F)) (b3 : (⟨S64, .f32⟩ : BufTy).Contents (Elt F)) :
    (⟨S100000x64, .f32⟩ : BufTy).Contents (Elt F) :=
  third (round e (second (round e (first (features x feat) W1 (asRow b1))) W2 (asRow b2))) W3 (asRow b3)

end Cert.Gcn

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.SpecAt.lean ====
/-
  The three layers of the specification read at an entry, at the ideal values.

  At the ideal values a product of an N×64 matrix with a 64×64 matrix has at (r, q) the entry Σ_l X(r,l)·W(l,q), and
  the bias row repeated down the rows has at (r, q) the row's entry q. The positive part of an entry is its maximum
  with the value of the zero word; nothing here needs to know which number that is.
-/
import proofs.«144445_j31988916420846_1_alg».proof.Proof.Spec
import proofs.«144445_j31988916420846_1_alg».proof.Proof.LibDenseLayer

noncomputable section

namespace Cert.Gcn

open Idealize.ShloMosaic Idealize.ShloMosaic.ValueIdx Cert.ReferenceIdeal Cert.ReferenceIdeal.Gen

/-- The positive part of one extended real: its maximum with the value of the zero word. -/
def pos (x : EReal) : EReal := max x (Ideal.ofBits .f32 0x00000000#32)

/-- The positive part of an array, at an entry. -/
theorem positive_apply (X : (⟨S100000x64, .f32⟩ : BufTy).Contents (Elt Ideal)) (i : S100000x64.Idx) :
    positive (F := Ideal) X i = pos (X i) := rfl

/-- A dense layer at an entry: row r of X against column q of W, plus entry q of the bias row. -/
theorem dense_apply (X : (⟨S100000x64, .f32⟩ : BufTy).Contents (Elt Ideal)) (W : (⟨S64x64, .f32⟩ : BufTy).Contents (Elt Ideal))
    (b : (⟨S1x64, .f32⟩ : BufTy).Contents (Elt Ideal)) (r : Fin 100000) (q : Fin 64) :
    dense (F := Ideal) X W b (ix2 r q) = (∑ l : Fin 64, X (ix2 r l) * W (ix2 l q)) + b (ix2 (0 : Fin 1) q) := by
  unfold dense
  refine congrArg₂ (· + ·) ?_ ?_
  · exact DenseLayer.dotGeneral_rows_apply _ none _ X W r q
  · exact broadcastInDim_oneRow_apply _ b r q

theorem first_apply (X : (⟨S100000x64, .f32⟩ : BufTy).Contents (Elt Ideal)) (W : (⟨S64x64, .f32⟩ : BufTy).Contents (Elt Ideal))
    (b : (⟨S1x64, .f32⟩ : BufTy).Contents (Elt Ideal)) (r : Fin 100000) (q : Fin 64) :
    first (F := Ideal) X W b (ix2 r q) = (∑ l : Fin 64, X (ix2 r l) * W (ix2 l q)) + b (ix2 (0 : Fin 1) q) :=
  dense_apply X W b r q

theorem second_apply (X : (⟨S100000x64, .f32⟩ : BufTy).Contents (Elt Ideal)) (W : (⟨S64x64, .f32⟩ : BufTy).Contents (Elt Ideal))
    (b : (⟨S1x64, .f32⟩ : BufTy).Contents (Elt Ideal)) (r : Fin 100000) (q : Fin 64) :
    second (F := Ideal) X W b (ix2 r q) = (∑ l : Fin 64, pos (X (ix2 r l)) * W (ix2 l q)) + b (ix2 (0 : Fin 1) q) :=
  dense_apply (positive X) W b r q

theorem third_apply (X : (⟨S100000x64, .f32⟩ : BufTy).Contents (Elt Ideal)) (W : (⟨S64x64, .f32⟩ : BufTy).Contents (Elt Ideal))
    (b : (⟨S1x64, .f32⟩ : BufTy).Contents (Elt Ideal)) (r : Fin 100000) (q : Fin 64) :
    third (F := Ideal) X W b (ix2 r q) = pos ((∑ l : Fin 64, pos (X (ix2 r l)) * W (ix2 l q)) + b (ix2 (0 : Fin 1) q)) :=
  congrArg pos (dense_apply (positive X) W b r q)

end Cert.Gcn

end
-- ==== Proof.Payload.lean ====
/-
  What each kernel body stores, read at an entry of the block, at the ideal values.

  A body loads a 5000×64 block of the features, the 64×64 weights and the bias row. At the ideal values the change of
  float format before the product is the identity and the product into a zero accumulator has at (p, q) the entry
  Σ_l x(p,l)·w(l,q); the bias row broadcast down the block adds its entry q. The second and third bodies take the
  positive part of the block first; the third takes the positive part of the result as well.
-/
import proofs.«144445_j31988916420846_1_alg».proof.Proof.Gen.KernelIdeal.Skeleton
import proofs.«144445_j31988916420846_1_alg».proof.Proof.SpecAt

noncomputable section

namespace Cert.Gcn

open Idealize.ShloMosaic Idealize.ShloMosaic.ValueIdx Cert.KernelIdeal Cert.KernelIdeal.Gen

/-- The bias row cast to itself and broadcast down the 5000 rows of a block reads the row's entry q. -/
theorem biasBlock_apply (x2 : Vec Ideal S1x64 .f32) (p : Fin 5000) (q : Fin 64) :
    broadcastTo S5000x64 (shapeCast S1x64 x2 shapeCasts_S1x64_S1x64) broadcasts_S1x64_S5000x64 (ix2 p q) = x2 (ix2 (0 : Fin 1) q) := by
  rw [shapeCast_self]
  exact broadcastTo_1b_ab_apply x2 _ p q

/-- The first body's store at (p, q). -/
theorem pay0_apply (x0 : Vec Ideal S5000x64 .f32) (x1 : Vec Ideal S64x64 .f32) (x2 : Vec Ideal S1x64 .f32) (p : Fin 5000) (q : Fin 64) :
    k0_pay1 (F := Ideal) x0 x1 x2 (ix2 p q) = (∑ l : Fin 64, x0 (ix2 p l) * x1 (ix2 l q)) + x2 (ix2 (0 : Fin 1) q) := by
  unfold k0_pay1
  refine congrArg₂ (· + ·) ?_ (biasBlock_apply x2 p q)
  refine (DenseLayer.matmul_rows_apply _ none _ _ p q).trans ?_
  refine Finset.sum_congr rfl fun l _ => ?_
  rw [shapeCast_self]
  rfl

/-- The second body's store at (p, q). -/
theorem pay1_apply (x0 : Vec Ideal S5000x64 .f32) (x1 : Vec Ideal S64x64 .f32) (x2 : Vec Ideal S1x64 .f32) (p : Fin 5000) (q : Fin 64) :
    k1_pay1 (F := Ideal) x0 x1 x2 (ix2 p q) = (∑ l : Fin 64, pos (x0 (ix2 p l)) * x1 (ix2 l q)) + x2 (ix2 (0 : Fin 1) q) := by
  unfold k1_pay1
  refine congrArg₂ (· + ·) ?_ (biasBlock_apply x2 p q)
  refine (DenseLayer.matmul_rows_apply _ none _ _ p q).trans ?_
  refine Finset.sum_congr rfl fun l _ => ?_
  rw [shapeCast_self]
  rfl

/-- The third body's store at (p, q). -/
theorem pay2_apply (x0 : Vec Ideal S5000x64 .f32) (x1 : Vec Ideal S64x64 .f32) (x2 : Vec Ideal S1x64 .f32) (p : Fin 5000) (q : Fin 64) :
    k2_pay1 (F := Ideal) x0 x1 x2 (ix2 p q) = pos ((∑ l : Fin 64, pos (x0 (ix2 p l)) * x1 (ix2 l q)) + x2 (ix2 (0 : Fin 1) q)) := by
  unfold k2_pay1
  refine congrArg pos ?_
  refine congrArg₂ (· + ·) ?_ (biasBlock_apply x2 p q)
  refine (DenseLayer.matmul_rows_apply _ none _ _ p q).trans ?_
  refine Finset.sum_congr rfl fun l _ => ?_
  rw [shapeCast_self]
  rfl

end Cert.Gcn

end
-- ==== Proof.Region0.lean ====
/-
  What the first pallas_call leaves in its output array, for any contents the region is entered with.

  The grid has 20 points. Point t loads rows 5000·t … 5000·t + 4999 of the features (all 64 columns), the whole 64×64
  weights and the whole bias row, and writes back rows 5000·t … 5000·t + 4999 of the output. So entry (p, q) of what
  point t writes back is entry (5000·t + p, q) of the layer applied to the whole arrays, and since every row r lies in
  the block of the point r / 5000, the output array ends holding the layer of the whole arrays.
-/
import proofs.«144445_j31988916420846_1_alg».proof.Proof.Gen.KernelIdeal.Frame
import proofs.«144445_j31988916420846_1_alg».proof.Proof.Payload
import Idealize.ShloMosaic.Lib.Pipeline.Value

set_option maxRecDepth 16384

noncomputable section

namespace Cert.Gcn.Region0

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the features' and the output's block row is the point, every other block index is 0. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 20 :=
  (by decide +kernel : ∀ t : Fin grid0.N, _)

/-- Every one of the 20 block rows is some point's. -/
theorem index_onto : ∀ k : Fin 20, ∃ t : Fin cfg0.N, win0_3.index t = ![k.val, 0] :=
  (by decide +kernel : ∀ k : Fin 20, ∃ t : Fin grid0.N, win0_3.index t = ![k.val, 0])

/-- Row p of point t's block of the features is row 5000·t + p of the array. -/
theorem read_features (c : Dev nD) (t : Fin cfg0.N) (p : Fin 5000) (l : Fin 64) (r : Fin 100000) (hr : r.val = t.val * 5000 + p.val) :
    iblk0 V c 0 t (ix2 p l) = V c main_v0 (ix2 r l) := by
  obtain ⟨e00, e01, -⟩ := index_maps t
  show V c main_v0 (((cfg0.win 0).blk t).view.emb (ix2 p l)) = V c main_v0 (ix2 r l)
  refine congrArg (V c main_v0) ?_
  funext a; apply Fin.ext
  match a with
  | ⟨0, _⟩ => show win0_0.index t (0 : Fin 2) * 5000 + 1 * p.val = r.val; omega
  | ⟨1, _⟩ => show win0_0.index t (1 : Fin 2) * 64 + 1 * l.val = l.val; omega

/-- Every point's block of the weights is the whole array. -/
theorem read_weights (c : Dev nD) (t : Fin cfg0.N) (l q : Fin 64) :
    iblk0 V c 1 t (ix2 l q) = V c main_arg3 (ix2 l q) := by
  obtain ⟨-, -, e10, e11, -⟩ := index_maps t
  show V c main_arg3 (((cfg0.win 1).blk t).view.emb (ix2 l q)) = V c main_arg3 (ix2 l q)
  refine congrArg (V c main_arg3) ?_
  funext a; apply Fin.ext
  match a with
  | ⟨0, _⟩ => show win0_1.index t (0 : Fin 2) * 64 + 1 * l.val = l.val; omega
  | ⟨1, _⟩ => show win0_1.index t (1 : Fin 2) * 64 + 1 * q.val = q.val; omega

/-- Every point's block of the bias row is the whole row. -/
theorem read_bias (c : Dev nD) (t : Fin cfg0.N) (q : Fin 64) :
    iblk0 V c 2 t (ix2 (0 : Fin 1) q) = V c main_v34 (ix2 (0 : Fin 1) q) := by
  obtain ⟨-, -, -, -, e20, e21, -⟩ := index_maps t
  show V c main_v34 (((cfg0.win 2).blk t).view.emb (ix2 (0 : Fin 1) q)) = V c main_v34 (ix2 (0 : Fin 1) q)
  refine congrArg (V c main_v34) ?_
  funext a; apply Fin.ext
  match a with
  | ⟨0, _⟩ => show win0_2.index t (0 : Fin 2) * 1 + 1 * 0 = 0; omega
  | ⟨1, _⟩ => show win0_2.index t (1 : Fin 2) * 64 + 1 * q.val = q.val; omega

/-- The body's store at (p, q), from blocks that are rows of the whole arrays, is the layer's entry (r, q). -/
theorem tile (X : (⟨Cert.ReferenceIdeal.S100000x64, .f32⟩ : BufTy).Contents (Elt Ideal))
    (W : (⟨Cert.ReferenceIdeal.S64x64, .f32⟩ : BufTy).Contents (Elt Ideal))
    (b : (⟨Cert.ReferenceIdeal.S1x64, .f32⟩ : BufTy).Contents (Elt Ideal))
    (x0 : Vec Ideal S5000x64 .f32) (x1 : Vec Ideal S64x64 .f32) (x2 : Vec Ideal S1x64 .f32)
    (r : Fin 100000) (p : Fin 5000) (q : Fin 64)
    (h0 : ∀ l : Fin 64, x0 (ix2 p l) = X (ix2 r l)) (h1 : ∀ l : Fin 64, x1 (ix2 l q) = W (ix2 l q))
    (h2 : x2 (ix2 (0 : Fin 1) q) = b (ix2 (0 : Fin 1) q)) :
    k0_pay1 (F := Ideal) x0 x1 x2 (ix2 p q) = first (F := Ideal) X W b (ix2 r q) := by
  rw [pay0_apply, first_apply, h2]
  simp only [h0, h1]

/-- What point t writes back is block t of the layer of the whole arrays. -/
theorem flushed (c : Dev nD) (t : Fin cfg0.N) :
    (dat0 V c).flushed 3 t
      = ((cfg0.win 3).blk t).view.read (Elt Ideal) (first (F := Ideal) (V c main_v0) (V c main_arg3) (V c main_v34)) := by
  show (cfg0.win 3).cut (grid0.coords t) ((dat0 V c).after 3 t) = _
  rw [after0_3]
  unfold out0_3
  rw [View.canon_unit_zero offsets_zero]
  simp only [View.ld_unit_zero (S := S5000x64) offsets_zero, View.ld_unit_zero (S := S64x64) offsets_zero,
    View.ld_unit_zero (S := S1x64) offsets_zero]
  obtain ⟨-, -, -, -, -, -, e30, e31, ht⟩ := index_maps t
  funext j
  obtain ⟨p, q, rfl⟩ : ∃ (p : Fin 5000) (q : Fin 64), j = ix2 p q := ⟨j 0, j 1, eq_ix2 j⟩
  have hp : p.val < 5000 := p.isLt
  have he : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show k0_pay1 (F := Ideal) (iblk0 V c 0 t) (iblk0 V c 1 t) (iblk0 V c 2 t) (ix2 p q)
    = first (F := Ideal) (V c main_v0) (V c main_arg3) (V c main_v34) (((cfg0.win 3).blk t).view.emb (ix2 p q))
  rw [he]
  exact tile (V c main_v0) (V c main_arg3) (V c main_v34) (iblk0 V c 0 t) (iblk0 V c 1 t) (iblk0 V c 2 t)
    ⟨t.val * 5000 + p.val, by omega⟩ p q
    (fun l => read_features V c t p l _ rfl) (fun l => read_weights V c t l q) (read_bias V c t q)

/-- An index of the output array is in point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v35).slice (win0_3.rect t)).set ↔ _
  rw [View.set_slice_whole, Rect.mem_set_unit]
  exact Iff.rfl

/-- Every index of the output array is in the block of the point that holds its row. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region: the layer of the arrays the region was entered with. -/
theorem result (c : Dev nD) :
    (dat0 V c).arrAt 3 cfg0.N = first (F := Ideal) (V c main_v0) (V c main_arg3) (V c main_v34) :=
  (dat0 V c).arrAt_eq_of_cover 3 _ (fun t _ => flushed V c t) covered

end Cert.Gcn.Region0

end
-- ==== Proof.Region1.lean ====
/-
  What the second pallas_call leaves in its output array, for any contents the region is entered with.

  The grid has 20 points. Point t loads rows 5000·t … 5000·t + 4999 of the features (all 64 columns), the whole 64×64
  weights and the whole bias row, and writes back rows 5000·t … 5000·t + 4999 of the output. So entry (p, q) of what
  point t writes back is entry (5000·t + p, q) of the layer applied to the whole arrays, and since every row r lies in
  the block of the point r / 5000, the output array ends holding the layer of the whole arrays.
-/
import proofs.«144445_j31988916420846_1_alg».proof.Proof.Gen.KernelIdeal.Frame
import proofs.«144445_j31988916420846_1_alg».proof.Proof.Payload
import Idealize.ShloMosaic.Lib.Pipeline.Value

set_option maxRecDepth 16384

noncomputable section

namespace Cert.Gcn.Region1

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the features' and the output's block row is the point, every other block index is 0. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 20 :=
  (by decide +kernel : ∀ t : Fin grid1.N, _)

/-- Every one of the 20 block rows is some point's. -/
theorem index_onto : ∀ k : Fin 20, ∃ t : Fin cfg1.N, win1_3.index t = ![k.val, 0] :=
  (by decide +kernel : ∀ k : Fin 20, ∃ t : Fin grid1.N, win1_3.index t = ![k.val, 0])

/-- Row p of point t's block of the features is row 5000·t + p of the array. -/
theorem read_features (c : Dev nD) (t : Fin cfg1.N) (p : Fin 5000) (l : Fin 64) (r : Fin 100000) (hr : r.val = t.val * 5000 + p.val) :
    iblk1 V c 0 t (ix2 p l) = V c main_v48 (ix2 r l) := by
  obtain ⟨e00, e01, -⟩ := index_maps t
  show V c main_v48 (((cfg1.win 0).blk t).view.emb (ix2 p l)) = V c main_v48 (ix2 r l)
  refine congrArg (V c main_v48) ?_
  funext a; apply Fin.ext
  match a with
  | ⟨0, _⟩ => show win1_0.index t (0 : Fin 2) * 5000 + 1 * p.val = r.val; omega
  | ⟨1, _⟩ => show win1_0.index t (1 : Fin 2) * 64 + 1 * l.val = l.val; omega

/-- Every point's block of the weights is the whole array. -/
theorem read_weights (c : Dev nD) (t : Fin cfg1.N) (l q : Fin 64) :
    iblk1 V c 1 t (ix2 l q) = V c main_arg5 (ix2 l q) := by
  obtain ⟨-, -, e10, e11, -⟩ := index_maps t
  show V c main_arg5 (((cfg1.win 1).blk t).view.emb (ix2 l q)) = V c main_arg5 (ix2 l q)
  refine congrArg (V c main_arg5) ?_
  funext a; apply Fin.ext
  match a with
  | ⟨0, _⟩ => show win1_1.index t (0 : Fin 2) * 64 + 1 * l.val = l.val; omega
  | ⟨1, _⟩ => show win1_1.index t (1 : Fin 2) * 64 + 1 * q.val = q.val; omega

/-- Every point's block of the bias row is the whole row. -/
theorem read_bias (c : Dev nD) (t : Fin cfg1.N) (q : Fin 64) :
    iblk1 V c 2 t (ix2 (0 : Fin 1) q) = V c main_v49 (ix2 (0 : Fin 1) q) := by
  obtain ⟨-, -, -, -, e20, e21, -⟩ := index_maps t
  show V c main_v49 (((cfg1.win 2).blk t).view.emb (ix2 (0 : Fin 1) q)) = V c main_v49 (ix2 (0 : Fin 1) q)
  refine congrArg (V c main_v49) ?_
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- The body's store at (p, q), from blocks that are rows of the whole arrays, is the layer's entry (r, q). -/
theorem tile (X : (⟨Cert.ReferenceIdeal.S100000x64, .f32⟩ : BufTy).Contents (Elt Ideal))
    (W : (⟨Cert.ReferenceIdeal.S64x64, .f32⟩ : BufTy).Contents (Elt Ideal))
    (b : (⟨Cert.ReferenceIdeal.S1x64, .f32⟩ : BufTy).Contents (Elt Ideal))
    (x0 : Vec Ideal S5000x64 .f32) (x1 : Vec Ideal S64x64 .f32) (x2 : Vec Ideal S1x64 .f32)
    (r : Fin 100000) (p : Fin 5000) (q : Fin 64)
    (h0 : ∀ l : Fin 64, x0 (ix2 p l) = X (ix2 r l)) (h1 : ∀ l : Fin 64, x1 (ix2 l q) = W (ix2 l q))
    (h2 : x2 (ix2 (0 : Fin 1) q) = b (ix2 (0 : Fin 1) q)) :
    k1_pay1 (F := Ideal) x0 x1 x2 (ix2 p q) = second (F := Ideal) X W b (ix2 r q) := by
  rw [pay1_apply, second_apply, h2]
  simp only [h0, h1]

/-- What point t writes back is block t of the layer of the whole arrays. -/
theorem flushed (c : Dev nD) (t : Fin cfg1.N) :
    (dat1 V c).flushed 3 t
      = ((cfg1.win 3).blk t).view.read (Elt Ideal) (second (F := Ideal) (V c main_v48) (V c main_arg5) (V c main_v49)) := by
  show (cfg1.win 3).cut (grid1.coords t) ((dat1 V c).after 3 t) = _
  rw [after1_3]
  unfold out1_3
  rw [View.canon_unit_zero offsets_zero]
  simp only [View.ld_unit_zero (S := S5000x64) offsets_zero, View.ld_unit_zero (S := S64x64) offsets_zero,
    View.ld_unit_zero (S := S1x64) offsets_zero]
  obtain ⟨-, -, -, -, -, -, e30, e31, ht⟩ := index_maps t
  funext j
  obtain ⟨p, q, rfl⟩ : ∃ (p : Fin 5000) (q : Fin 64), j = ix2 p q := ⟨j 0, j 1, eq_ix2 j⟩
  have hp : p.val < 5000 := p.isLt
  have he : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  show k1_pay1 (F := Ideal) (iblk1 V c 0 t) (iblk1 V c 1 t) (iblk1 V c 2 t) (ix2 p q)
    = second (F := Ideal) (V c main_v48) (V c main_arg5) (V c main_v49) (((cfg1.win 3).blk t).view.emb (ix2 p q))
  rw [he]
  exact tile (V c main_v48) (V c main_arg5) (V c main_v49) (iblk1 V c 0 t) (iblk1 V c 1 t) (iblk1 V c 2 t)
    ⟨t.val * 5000 + p.val, by omega⟩ p q
    (fun l => read_features V c t p l _ rfl) (fun l => read_weights V c t l q) (read_bias V c t q)

/-- An index of the output array is in point t's block iff each coordinate is in the block's range on its axis. -/
theorem mem_block (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v50).slice (win1_3.rect t)).set ↔ _
  rw [View.set_slice_whole, Rect.mem_set_unit]
  exact Iff.rfl

/-- Every index of the output array is in the block of the point that holds its row. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region: the layer of the arrays the region was entered with. -/
theorem result (c : Dev nD) :
    (dat1 V c).arrAt 3 cfg1.N = second (F := Ideal) (V c main_v48) (V c main_arg5) (V c main_v49) :=
  (dat1 V c).arrAt_eq_of_cover 3 _ (fun t _ => flushed V c t) covered

end Cert.Gcn.Region1

end
-- ==== Proof.Region2.lean ====
/-
  What the third pallas_call leaves in its output array, for any contents the region is entered with.

  The grid has 20 points. Point t loads rows 5000·t … 5000·t + 4999 of the features (all 64 columns), the whole 64×64
  weights and the whole bias row, and writes back rows 5000·t … 5000·t + 4999 of the output. So entry (p, q) of what
  point t writes back is entry (5000·t + p, q) of the layer applied to the whole arrays, and since every row r lies in
  the block of the point r / 5000, the output array ends holding the layer of the whole arrays.
-/
import proofs.«144445_j31988916420846_1_alg».proof.Proof.Gen.KernelIdeal.Frame
import proofs.«144445_j31988916420846_1_alg».proof.Proof.Payload
import Idealize.ShloMosaic.Lib.Pipeline.Value

set_option maxRecDepth 16384

noncomputable section

namespace Cert.Gcn.Region2

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The index maps over the grid: the features' and the output's block row is the point, every other block index is 0. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 20 :=
  (by decide +kernel : ∀ t : Fin grid2.N, _)

/-- Every one of the 20 block rows is some point's. -/
theorem index_onto : ∀ k : Fin 20, ∃ t : Fin cfg2.N, win2_3.index t = ![k.val, 0] :=
  (by decide +kernel : ∀ k : Fin 20, ∃ t : Fin grid2.N, win2_3.index t = ![k.val, 0])

/-- Row p of point t's block of the features is row 5000·t + p of the array. -/
theorem read_features (c : Dev nD) (t : Fin cfg2.N) (p : Fin 5000) (l : Fin 64) (r : Fin 100000) (hr : r.val = t.val * 5000 + p.val) :
    iblk2 V c 0 t (ix2 p l) = V c main_v63 (ix2 r l) := by
  obtain ⟨e00, e01, -⟩ := index_maps t
  show V c main_v63 (((cfg2.win 0).blk t).view.emb (ix2 p l)) = V c main_v63 (ix2 r l)
  refine congrArg (V c main_v63) ?_
  funext a; apply Fin.ext
  match a with
  | ⟨0, _⟩ => show win2_0.index t (0 : Fin 2) * 5000 + 1 * p.val = r.val; omega
  | ⟨1, _⟩ => show win2_0.index t (1 : Fin 2) * 64 + 1 * l.val = l.val; omega

/-- Every point's block of the weights is the whole array. -/
theorem read_weights (c : Dev nD) (t : Fin cfg2.N) (l q : Fin 64) :
    iblk2 V c 1 t (ix2 l q) = V c main_arg7 (ix2 l q) := by
  obtain ⟨-, -, e10, e11, -⟩ := index_maps t
  show V c main_arg7 (((cfg2.win 1).blk t).view.emb (ix2 l q)) = V c main_arg7 (ix2 l q)
  refine congrArg (V c main_arg7) ?_
  funext a; apply Fin.ext
  match a with
  | ⟨0, _⟩ => show win2_1.index t (0 : Fin 2) * 64 + 1 * l.val = l.val; omega
  | ⟨1, _⟩ => show win2_1.index t (1 : Fin 2) * 64 + 1 * q.val = q.val; omega

/-- Every point's block of the bias row is the whole row. -/
theorem read_bias (c : Dev nD) (t : Fin cfg2.N) (q : Fin 64) :
    iblk2 V c 2 t (ix2 (0 : Fin 1) q) = V c main_v64 (ix2 (0 : Fin 1) q) := by
  obtain ⟨-, -, -, -, e20, e21, -⟩ := index_maps t
  show V c main_v64 (((cfg2.win 2).blk t).view.emb (ix2 (0 : Fin 1) q)) = V c main_v64 (ix2 (0 : Fin 1) q)
  refine congrArg (V c main_v64) ?_
  funext a; apply Fin.ext
  match a with
  | ⟨0, _⟩ => show win2_2.index t (0 : Fin 2) * 1 + 1 * 0 = 0; omega
  | ⟨1, _⟩ => show win2_2.index t (1 : Fin 2) * 64 + 1 * q.val = q.val; omega

/-- The body's store at (p, q), from blocks that are rows of the whole arrays, is the layer's entry (r, q). -/
theorem tile (X : (⟨Cert.ReferenceIdeal.S100000x64, .f32⟩ : BufTy).Contents (Elt Ideal))
    (W : (⟨Cert.ReferenceIdeal.S64x64, .f32⟩ : BufTy).Contents (Elt Ideal))
    (b : (⟨Cert.ReferenceIdeal.S1x64, .f32⟩ : BufTy).Contents (Elt Ideal))
    (x0 : Vec Ideal S5000x64 .f32) (x1 : Vec Ideal S64x64 .f32) (x2 : Vec Ideal S1x64 .f32)
    (r : Fin 100000) (p : Fin 5000) (q : Fin 64)
    (h0 : ∀ l : Fin 64, x0 (ix2 p l) = X (ix2 r l)) (h1 : ∀ l : Fin 64, x1 (ix2 l q) = W (ix2 l q))
    (h2 : x2 (ix2 (0 : Fin 1) q) = b (ix2 (0 : Fin 1) q)) :
    k2_pay1 (F := Ideal) x0 x1 x2 (ix2 p q) = third (F := Ideal) X W b (ix2 r q) := by
  rw [pay2_apply, third_apply, h2]
  simp only [h0, h1]

/-- What point t writes back is block t of the layer of the whole arrays. -/
theorem flushed (c : Dev nD) (t : Fin cfg2.N) :
    (dat2 V c).flushed 3 t
      = ((cfg2.win 3).blk t).view.read (Elt Ideal) (third (F := Ideal) (V c main_v63) (V c main_arg7) (V c main_v64)) := by
  show (cfg2.win 3).cut (grid2.coords t) ((dat2 V c).after 3 t) = _
  rw [after2_3]
  unfold out2_3
  rw [View.canon_unit_zero offsets_zero]
  simp only [View.ld_unit_zero (S := S5000x64) offsets_zero, View.ld_unit_zero (S := S64x64) offsets_zero,
    View.ld_unit_zero (S := S1x64) offsets_zero]
  obtain ⟨-, -, -, -, -, -, e30, e31, ht⟩ := index_maps t
  funext j
  obtain ⟨p, q, rfl⟩ : ∃ (p : Fin 5000) (q : Fin 64), j = ix2 p q := ⟨j 0, j 1, eq_ix2 j⟩
  have hp : p.val < 5000 := p.isLt
  have he : ((cfg2.win 3).blk t).view.emb (ix2 p q) = ix2 (⟨t.val * 5000 + p.val, by omega⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 64 + 1 * q.val = q.val; omega
  show k2_pay1 (F := Ideal) (iblk2 V c 0 t) (iblk2 V c 1 t) (iblk2 V c 2 t) (ix2 p q)
    = third (F := Ideal) (V c main_v63) (V c main_arg7) (V c main_v64) (((cfg2.win 3).blk t).view.emb (ix2 p q))
  rw [he]
  exact tile (V c main_v63) (V c main_arg7) (V c main_v64) (iblk2 V c 0 t) (iblk2 V c 1 t) (iblk2 V c 2 t)
    ⟨t.val * 5000 + p.val, by omega⟩ p q
    (fun l => read_features V c t p l _ rfl) (fun l => read_weights V c t l q) (read_bias V c t q)

/-- An index of the output array is in point t's block iff each coordinate is in the block's range on its axis. -/
theorem mem_block (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v65).slice (win2_3.rect t)).set ↔ _
  rw [View.set_slice_whole, Rect.mem_set_unit]
  exact Iff.rfl

/-- Every index of the output array is in the block of the point that holds its row. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the region: the layer of the arrays the region was entered with. -/
theorem result (c : Dev nD) :
    (dat2 V c).arrAt 3 cfg2.N = third (F := Ideal) (V c main_v63) (V c main_arg7) (V c main_v64) :=
  (dat2 V c).arrAt_eq_of_cover 3 _ (fun t _ => flushed V c t) covered

end Cert.Gcn.Region2

end
-- ==== Proof.KernelValue.lean ====
/-
  The kernel program's result buffer, traced back to the launch memory.

  The program is three pallas_calls among stretches of host operations, and its frame names the buffer contents at each
  of the six boundaries as a fold from the launch memory. Read at the buffers that matter:

    after the first stretch   the features side by side, the sources, targets and weights of the messages, and the
                              first bias cast to a row;
    after the first call      its output: the first layer of those;
    after the second stretch  one round of message passing applied to that, and the second bias as a row;
    after the second call     the second layer;
    after the third stretch   one round applied to that, and the third bias as a row;
    after the third call      the third layer: the program's result.

  The sources, targets, weights and the later layers' parameters are written once in the first stretch (or are
  arguments) and nothing later writes them, so every boundary finds them as the first stretch left them.
  A bias vector cast to one row and the same vector laid along a row's axis are one row: both read entry q of the
  vector at (0, q).
-/
import proofs.«144445_j31988916420846_1_alg».proof.Proof.Gen.KernelIdeal.Frame
import proofs.«144445_j31988916420846_1_alg».proof.Proof.Region0
import proofs.«144445_j31988916420846_1_alg».proof.Proof.Region1
import proofs.«144445_j31988916420846_1_alg».proof.Proof.Region2
import Idealize.ShloMosaic.Lib.StableHlo.Run

set_option maxRecDepth 16384

noncomputable section

namespace Cert.Gcn.KernelValue

open Idealize.ShloMosaic Idealize.ShloMosaic.ValueIdx Idealize.ShloMosaic.TcCoe Idealize.SL.Sem Idealize.ShloMosaic.StableHlo
open Cert.KernelIdeal Cert.KernelIdeal.Gen

/-- A vector of 64 entries cast to one row is the vector laid along the row's axis. -/
theorem cast_eq_asRow {α : Type} (b : (⟨1, ![64]⟩ : Shape).Idx → α) (h : (⟨1, ![64]⟩ : Shape).ShapeCasts ⟨2, ![1, 64]⟩)
    (h' : (⟨1, ![64]⟩ : Shape).BroadcastsInDim ⟨2, ![1, 64]⟩ ![1]) :
    shapeCast ⟨2, ![1, 64]⟩ b h = broadcastInDim ⟨2, ![1, 64]⟩ ![1] h' b := by
  funext j
  obtain ⟨u, q, rfl⟩ : ∃ (u : Fin 1) (q : Fin 64), j = ix2 u q := ⟨j 0, j 1, eq_ix2 j⟩
  rw [shapeCast_a_1a_apply]
  exact (DenseLayer.broadcastInDim_vec_row_apply h' b u q).symm

variable (m : (ℓ : Loc nD τ sig) → Buf (Elt Ideal) ℓ) (ρ : Dev nD → PrngReg)

/-! ## After the first stretch -/

theorem first_features (c : Dev nD) : W1 m ρ c (Proc.devRef .tc main_v0)
    = features (F := Ideal) (m ((c.tc : Thread nD τ).loc main_arg0)) (m ((c.tc : Thread nD τ).loc main_arg1)) := by
  show StableHlo.after hostOps0 (W0 m ρ c) (Proc.devRef .tc main_v0) = _
  after_results_simp
  rfl

theorem first_sources (c : Dev nD) : W1 m ρ c (Proc.devRef .tc main_v4)
    = sources (F := Ideal) (m ((c.tc : Thread nD τ).loc main_arg2)) := by
  show StableHlo.after hostOps0 (W0 m ρ c) (Proc.devRef .tc main_v4) = _
  after_results_simp
  rfl

theorem first_targets (c : Dev nD) : W1 m ρ c (Proc.devRef .tc main_v7)
    = targets (F := Ideal) (m ((c.tc : Thread nD τ).loc main_arg2)) := by
  show StableHlo.after hostOps0 (W0 m ρ c) (Proc.devRef .tc main_v7) = _
  after_results_simp
  rfl

theorem first_weights (c : Dev nD) : W1 m ρ c (Proc.devRef .tc main_v33)
    = weights (F := Ideal) (m ((c.tc : Thread nD τ).loc main_arg2)) := by
  show StableHlo.after hostOps0 (W0 m ρ c) (Proc.devRef .tc main_v33) = _
  after_results_simp
  rfl

theorem first_bias (c : Dev nD) : W1 m ρ c (Proc.devRef .tc main_v34)
    = asRow (F := Ideal) (m ((c.tc : Thread nD τ).loc main_arg4)) := by
  show StableHlo.after hostOps0 (W0 m ρ c) (Proc.devRef .tc main_v34) = _
  after_results_simp
  exact cast_eq_asRow _ _ _

theorem first_arg3 (c : Dev nD) : W1 m ρ c (Proc.devRef .tc main_arg3) = m ((c.tc : Thread nD τ).loc main_arg3) := by
  show StableHlo.after hostOps0 (W0 m ρ c) (Proc.devRef .tc main_arg3) = _
  after_results_simp
theorem first_arg5 (c : Dev nD) : W1 m ρ c (Proc.devRef .tc main_arg5) = m ((c.tc : Thread nD τ).loc main_arg5) := by
  show StableHlo.after hostOps0 (W0 m ρ c) (Proc.devRef .tc main_arg5) = _
  after_results_simp
theorem first_arg6 (c : Dev nD) : W1 m ρ c (Proc.devRef .tc main_arg6) = m ((c.tc : Thread nD τ).loc main_arg6) := by
  show StableHlo.after hostOps0 (W0 m ρ c) (Proc.devRef .tc main_arg6) = _
  after_results_simp
theorem first_arg7 (c : Dev nD) : W1 m ρ c (Proc.devRef .tc main_arg7) = m ((c.tc : Thread nD τ).loc main_arg7) := by
  show StableHlo.after hostOps0 (W0 m ρ c) (Proc.devRef .tc main_arg7) = _
  after_results_simp
theorem first_arg8 (c : Dev nD) : W1 m ρ c (Proc.devRef .tc main_arg8) = m ((c.tc : Thread nD τ).loc main_arg8) := by
  show StableHlo.after hostOps0 (W0 m ρ c) (Proc.devRef .tc main_arg8) = _
  after_results_simp

/-! ## After the first call -/

/-- The first layer's value. -/
def layer1 (c : Dev nD) : (⟨Cert.ReferenceIdeal.S100000x64, .f32⟩ : BufTy).Contents (Elt Ideal) :=
  first (F := Ideal) (features (m ((c.tc : Thread nD τ).loc main_arg0)) (m ((c.tc : Thread nD τ).loc main_arg1)))
    (m ((c.tc : Thread nD τ).loc main_arg3)) (asRow (m ((c.tc : Thread nD τ).loc main_arg4)))

theorem second_entry_layer (c : Dev nD) : W2 m ρ c (Proc.devRef .tc main_v35) = layer1 m c := by
  refine (W2_arr m ρ c 3).trans ((Region0.result (V1 m ρ) c).trans ?_)
  show first (F := Ideal) (W1 m ρ c (Proc.devRef .tc main_v0)) (W1 m ρ c (Proc.devRef .tc main_arg3)) (W1 m ρ c (Proc.devRef .tc main_v34)) = _
  rw [first_features, first_arg3, first_bias]
  rfl

theorem second_sources (c : Dev nD) : W2 m ρ c (Proc.devRef .tc main_v4) = sources (F := Ideal) (m ((c.tc : Thread nD τ).loc main_arg2)) :=
  (W2_of_ne m ρ c main_v4 (by decide)).trans (first_sources m ρ c)
theorem second_targets (c : Dev nD) : W2 m ρ c (Proc.devRef .tc main_v7) = targets (F := Ideal) (m ((c.tc : Thread nD τ).loc main_arg2)) :=
  (W2_of_ne m ρ c main_v7 (by decide)).trans (first_targets m ρ c)
theorem second_weights (c : Dev nD) : W2 m ρ c (Proc.devRef .tc main_v33) = weights (F := Ideal) (m ((c.tc : Thread nD τ).loc main_arg2)) :=
  (W2_of_ne m ρ c main_v33 (by decide)).trans (first_weights m ρ c)
theorem second_arg5 (c : Dev nD) : W2 m ρ c (Proc.devRef .tc main_arg5) = m ((c.tc : Thread nD τ).loc main_arg5) :=
  (W2_of_ne m ρ c main_arg5 (by decide)).trans (first_arg5 m ρ c)
theorem second_arg6 (c : Dev nD) : W2 m ρ c (Proc.devRef .tc main_arg6) = m ((c.tc : Thread nD τ).loc main_arg6) :=
  (W2_of_ne m ρ c main_arg6 (by decide)).trans (first_arg6 m ρ c)
theorem second_arg7 (c : Dev nD) : W2 m ρ c (Proc.devRef .tc main_arg7) = m ((c.tc : Thread nD τ).loc main_arg7) :=
  (W2_of_ne m ρ c main_arg7 (by decide)).trans (first_arg7 m ρ c)
theorem second_arg8 (c : Dev nD) : W2 m ρ c (Proc.devRef .tc main_arg8) = m ((c.tc : Thread nD τ).loc main_arg8) :=
  (W2_of_ne m ρ c main_arg8 (by decide)).trans (first_arg8 m ρ c)

/-! ## After the second stretch -/

theorem third_round (c : Dev nD) : W3 m ρ c (Proc.devRef .tc main_v48)
    = round (F := Ideal) (m ((c.tc : Thread nD τ).loc main_arg2)) (layer1 m c) := by
  show StableHlo.after hostOps1 (W2 m ρ c) (Proc.devRef .tc main_v48) = _
  after_results_simp
  rw [second_sources, second_targets, second_weights, second_entry_layer]
  rfl

theorem third_bias (c : Dev nD) : W3 m ρ c (Proc.devRef .tc main_v49) = asRow (F := Ideal) (m ((c.tc : Thread nD τ).loc main_arg6)) := by
  show StableHlo.after hostOps1 (W2 m ρ c) (Proc.devRef .tc main_v49) = _
  after_results_simp
  rw [second_arg6]
  exact cast_eq_asRow _ _ _

theorem third_arg5 (c : Dev nD) : W3 m ρ c (Proc.devRef .tc main_arg5) = m ((c.tc : Thread nD τ).loc main_arg5) := by
  show StableHlo.after hostOps1 (W2 m ρ c) (Proc.devRef .tc main_arg5) = _
  after_results_simp
  exact second_arg5 m ρ c
theorem third_sources (c : Dev nD) : W3 m ρ c (Proc.devRef .tc main_v4) = sources (F := Ideal) (m ((c.tc : Thread nD τ).loc main_arg2)) := by
  show StableHlo.after hostOps1 (W2 m ρ c) (Proc.devRef .tc main_v4) = _
  after_results_simp
  exact second_sources m ρ c
theorem third_targets (c : Dev nD) : W3 m ρ c (Proc.devRef .tc main_v7) = targets (F := Ideal) (m ((c.tc : Thread nD τ).loc main_arg2)) := by
  show StableHlo.after hostOps1 (W2 m ρ c) (Proc.devRef .tc main_v7) = _
  after_results_simp
  exact second_targets m ρ c
theorem third_weights (c : Dev nD) : W3 m ρ c (Proc.devRef .tc main_v33) = weights (F := Ideal) (m ((c.tc : Thread nD τ).loc main_arg2)) := by
  show StableHlo.after hostOps1 (W2 m ρ c) (Proc.devRef .tc main_v33) = _
  after_results_simp
  exact second_weights m ρ c
theorem third_arg7 (c : Dev nD) : W3 m ρ c (Proc.devRef .tc main_arg7) = m ((c.tc : Thread nD τ).loc main_arg7) := by
  show StableHlo.after hostOps1 (W2 m ρ c) (Proc.devRef .tc main_arg7) = _
  after_results_simp
  exact second_arg7 m ρ c
theorem third_arg8 (c : Dev nD) : W3 m ρ c (Proc.devRef .tc main_arg8) = m ((c.tc : Thread nD τ).loc main_arg8) := by
  show StableHlo.after hostOps1 (W2 m ρ c) (Proc.devRef .tc main_arg8) = _
  after_results_simp
  exact second_arg8 m ρ c

/-! ## After the second call -/

/-- The second layer's value. -/
def layer2 (c : Dev nD) : (⟨Cert.ReferenceIdeal.S100000x64, .f32⟩ : BufTy).Contents (Elt Ideal) :=
  second (F := Ideal) (round (m ((c.tc : Thread nD τ).loc main_arg2)) (layer1 m c))
    (m ((c.tc : Thread nD τ).loc main_arg5)) (asRow (m ((c.tc : Thread nD τ).loc main_arg6)))

theorem fourth_entry_layer (c : Dev nD) : W4 m ρ c (Proc.devRef .tc main_v50) = layer2 m c := by
  refine (W4_arr m ρ c 3).trans ((Region1.result (V3 m ρ) c).trans ?_)
  show second (F := Ideal) (W3 m ρ c (Proc.devRef .tc main_v48)) (W3 m ρ c (Proc.devRef .tc main_arg5)) (W3 m ρ c (Proc.devRef .tc main_v49)) = _
  rw [third_round, third_arg5, third_bias]
  rfl

theorem fourth_sources (c : Dev nD) : W4 m ρ c (Proc.devRef .tc main_v4) = sources (F := Ideal) (m ((c.tc : Thread nD τ).loc main_arg2)) :=
  (W4_of_ne m ρ c main_v4 (by decide)).trans (third_sources m ρ c)
theorem fourth_targets (c : Dev nD) : W4 m ρ c (Proc.devRef .tc main_v7) = targets (F := Ideal) (m ((c.tc : Thread nD τ).loc main_arg2)) :=
  (W4_of_ne m ρ c main_v7 (by decide)).trans (third_targets m ρ c)
theorem fourth_weights (c : Dev nD) : W4 m ρ c (Proc.devRef .tc main_v33) = weights (F := Ideal) (m ((c.tc : Thread nD τ).loc main_arg2)) :=
  (W4_of_ne m ρ c main_v33 (by decide)).trans (third_weights m ρ c)
theorem fourth_arg7 (c : Dev nD) : W4 m ρ c (Proc.devRef .tc main_arg7) = m ((c.tc : Thread nD τ).loc main_arg7) :=
  (W4_of_ne m ρ c main_arg7 (by decide)).trans (third_arg7 m ρ c)
theorem fourth_arg8 (c : Dev nD) : W4 m ρ c (Proc.devRef .tc main_arg8) = m ((c.tc : Thread nD τ).loc main_arg8) :=
  (W4_of_ne m ρ c main_arg8 (by decide)).trans (third_arg8 m ρ c)

/-! ## After the third stretch -/

theorem fifth_round (c : Dev nD) : W5 m ρ c (Proc.devRef .tc main_v63)
    = round (F := Ideal) (m ((c.tc : Thread nD τ).loc main_arg2)) (layer2 m c) := by
  show StableHlo.after hostOps2 (W4 m ρ c) (Proc.devRef .tc main_v63) = _
  after_results_simp
  rw [fourth_sources, fourth_targets, fourth_weights, fourth_entry_layer]
  rfl

theorem fifth_bias (c : Dev nD) : W5 m ρ c (Proc.devRef .tc main_v64) = asRow (F := Ideal) (m ((c.tc : Thread nD τ).loc main_arg8)) := by
  show StableHlo.after hostOps2 (W4 m ρ c) (Proc.devRef .tc main_v64) = _
  after_results_simp
  rw [fourth_arg8]
  exact cast_eq_asRow _ _ _

theorem fifth_arg7 (c : Dev nD) : W5 m ρ c (Proc.devRef .tc main_arg7) = m ((c.tc : Thread nD τ).loc main_arg7) := by
  show StableHlo.after hostOps2 (W4 m ρ c) (Proc.devRef .tc main_arg7) = _
  after_results_simp
  exact fourth_arg7 m ρ c

/-! ## After the third call: the result -/

/-- The program's result buffer ends holding the network of the nine argument arrays. -/
theorem result (c : Dev nD) : W6 m ρ c (Proc.devRef .tc main_v65)
    = network (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) := by
  refine (W6_arr m ρ c 3).trans ((Region2.result (V5 m ρ) c).trans ?_)
  show third (F := Ideal) (W5 m ρ c (Proc.devRef .tc main_v63)) (W5 m ρ c (Proc.devRef .tc main_arg7)) (W5 m ρ c (Proc.devRef .tc main_v64)) = _
  rw [fifth_round, fifth_arg7, fifth_bias]
  rfl

end Cert.Gcn.KernelValue

end
-- ==== Proof.RefValue.lean ====
/-
  The reference program's result is the network of its arguments.

  The reference's run ends with its result at one composed term of the argument arrays. That term is the
  composition the specification names piece by piece: unfolding the names on one side gives the other, so nothing
  is computed here.
-/
import proofs.«144445_j31988916420846_1_alg».proof.Proof.Gen.ReferenceIdeal.Run
import proofs.«144445_j31988916420846_1_alg».proof.Proof.Spec

set_option maxRecDepth 16384

noncomputable section

namespace Cert.Gcn

open Idealize.ShloMosaic Idealize.SL.Sem Cert.ReferenceIdeal Cert.ReferenceIdeal.Gen

variable {F : FTy → Type} [FloatOps F]

/-- The reference's result term is `network` of the nine argument arrays. -/
theorem reference_result (m : (ℓ : Loc nD τ sig) → Buf (Elt F) ℓ) (c : Dev nD) :
    Cert.ReferenceIdeal.Value.res_main_v100 m c
      = network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v100 network third second first dense positive round roundWith weights invSqrtDegree
    fromEnd sources targets asRow features
  rfl

end Cert.Gcn

end
-- ==== Proof.lean ====
/-
  Two layers of graph convolution and a final dense layer: the kernel program against its reference.

  Both programs take node features x and feat (100000 × 32 each), an edge list (2 × 1600000 node numbers), and three
  64 × 64 weight matrices with their 64-entry biases. Both add every node's self loop to the edges, weigh a message
  from s to d by deg(s)^(-1/2) · deg(d)^(-1/2), and compute

      relu( relu( A · ( relu( A · ([x | feat] · W1 + b1) ) · W2 + b2 ) ) · Wfc + bfc )

  where A · h gathers the rows of h at the messages' sources, scales them by the weights and sums them at the
  targets. The reference does all of it with host operations. The kernel program does the gathers, scalings and
  scatters with the same host operations, and each "· W + b" (with the relu before it in the second and third, and
  after it in the third) in a pallas_call over 20 blocks of 5000 rows.

  Why the two agree at the ideal values. A block of 5000 rows of a product x · W depends on those 5000 rows of x only,
  so the 20 blocks written back are the 20 row blocks of the whole product (Region0, Region1, Region2); the change of
  float format before the kernel's product is the identity at the ideal values, where the kernel's product into a zero
  accumulator and the host's product are the same sum over the contracted coordinate (Payload, SpecAt). Everything else
  is the same operation applied to the same values on both sides (KernelValue, RefValue), so no law of arithmetic
  beyond that is used, and the finiteness of the inputs is not needed.

  The kernel program's result is read from the final state by running the frame's launch once more with the result
  buffer named in the post (KernelResultRun).
-/
import proofs.«144445_j31988916420846_1_alg».proof.Defs
import proofs.«144445_j31988916420846_1_alg».proof.Proof.Gen.Kernel
import proofs.«144445_j31988916420846_1_alg».proof.Proof.Gen.Kernel.Skeleton
import proofs.«144445_j31988916420846_1_alg».proof.Proof.Gen.Kernel.Launch
import proofs.«144445_j31988916420846_1_alg».proof.Proof.Gen.Kernel.Points
import proofs.«144445_j31988916420846_1_alg».proof.Proof.Gen.Kernel.Frame
import proofs.«144445_j31988916420846_1_alg».proof.Proof.Gen.KernelIdeal
import proofs.«144445_j31988916420846_1_alg».proof.Proof.Gen.KernelIdeal.Skeleton
import proofs.«144445_j31988916420846_1_alg».proof.Proof.Gen.KernelIdeal.Launch
import proofs.«144445_j31988916420846_1_alg».proof.Proof.Gen.KernelIdeal.Points
import proofs.«144445_j31988916420846_1_alg».proof.Proof.Gen.KernelIdeal.Frame
import proofs.«144445_j31988916420846_1_alg».proof.Proof.Gen.ReferenceIdeal
import proofs.«144445_j31988916420846_1_alg».proof.Proof.Gen.ReferenceIdeal.Run
import proofs.«144445_j31988916420846_1_alg».proof.Proof.Gen.Pre_finite_inputs
import proofs.«144445_j31988916420846_1_alg».proof.Proof.KernelResultRun
import proofs.«144445_j31988916420846_1_alg».proof.Proof.KernelValue
import proofs.«144445_j31988916420846_1_alg».proof.Proof.RefValue
import Idealize.ShloMosaic.Adequacy
import Idealize.ShloMosaic.Init

noncomputable section

namespace Cert.Proof

open Idealize.ShloMosaic Idealize.SL.Sem

/-- The kernel program as printed runs to the end and leaves its arguments alone. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the network of their arguments in the result buffer; the arguments agree. -/
theorem algebraic : Cert.algebraic_KernelIdeal_ReferenceIdeal := by
  intro m ρ m' ρ' _ hagree
  refine ⟨fun c => Cert.KernelIdeal.Gen.W6 m ρ c (Proc.devRef .tc Cert.KernelIdeal.main_v65),
    Cert.KernelIdeal.ResultRun.run_result m ρ, ?_⟩
  refine (θ_run Cert.ReferenceIdeal.defs _ _).mono (fun _ h c => ⟨(h c).1.trans ?_, (h c).2⟩)
    (Cert.ReferenceIdeal.Value.run (F := Ideal) m' ρ')
  refine (Cert.Gcn.reference_result m' c).trans (Eq.trans ?_ (Cert.Gcn.KernelValue.result m ρ c).symm)
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
